-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S3200000 32) (main_arg2 : IVec S3200000 32) (main_arg3 : FVec F S1433x16 .f32) (main_arg4 : FVec F S16 .f32) (main_arg5 : FVec F S16x7 .f32) (main_arg6 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg3
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg5
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg6 main_v13 main_v16
-- ==== Kernel.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S1000x1433 : Shape := ⟨2, ![1000, 1433]⟩
abbrev S1000x1 : Shape := ⟨2, ![1000, 1]⟩
abbrev S1000x16 : Shape := ⟨2, ![1000, 16]⟩
abbrev S3200000x16 : Shape := ⟨2, ![3200000, 16]⟩
abbrev S1x16 : Shape := ⟨2, ![1, 16]⟩
abbrev S100000x7 : Shape := ⟨2, ![100000, 7]⟩
abbrev S5000x16 : Shape := ⟨2, ![5000, 16]⟩
abbrev S5000x1 : Shape := ⟨2, ![5000, 1]⟩
abbrev S5000x7 : Shape := ⟨2, ![5000, 7]⟩
abbrev S3200000x7 : Shape := ⟨2, ![3200000, 7]⟩
abbrev S1x7 : Shape := ⟨2, ![1, 7]⟩

abbrev nBuf : Space → Nat
  | .hbm => 70
  | .vmem => 14
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x16, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S100000x1, .f32⟩
  | .hbm, ⟨41, _⟩ => ⟨S100000x16, .f32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S100000x16, .f32⟩
  | .hbm, ⟨48, _⟩ => ⟨S100000x16, .f32⟩
  | .hbm, ⟨49, _⟩ => ⟨S100000x1, .f32⟩
  | .hbm, ⟨50, _⟩ => ⟨S100000x7, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x7, .f32⟩
  | .hbm, ⟨60, _⟩ => ⟨S_, .f32⟩
  | .hbm, ⟨61, _⟩ => ⟨S100000x7, .f32⟩
  | .hbm, ⟨62, _⟩ => ⟨S3200000x1, .i32⟩
  | .hbm, ⟨63, _⟩ => ⟨S100000x7, .f32⟩
  | .hbm, ⟨64, _⟩ => ⟨S100000x1, .f32⟩
  | .hbm, ⟨65, _⟩ => ⟨S100000x7, .f32⟩
  | .hbm, ⟨66, _⟩ => ⟨S100000x7, .f32⟩
  | .hbm, ⟨67, _⟩ => ⟨S1x7, .f32⟩
  | .hbm, ⟨68, _⟩ => ⟨S100000x7, .f32⟩
  | .hbm, ⟨69, _⟩ => ⟨S100000x7, .f32⟩
  | .local _ .vmem, ⟨0, _⟩ => ⟨S1000x1433, .f32⟩
  | .local _ .vmem, ⟨1, _⟩ => ⟨S1000x1433, .f32⟩
  | .local _ .vmem, ⟨2, _⟩ => ⟨S1000x1, .f32⟩
  | .local _ .vmem, ⟨3, _⟩ => ⟨S1000x1, .f32⟩
  | .local _ .vmem, ⟨4, _⟩ => ⟨S1433x16, .f32⟩
  | .local _ .vmem, ⟨5, _⟩ => ⟨S1000x16, .f32⟩
  | .local _ .vmem, ⟨6, _⟩ => ⟨S1000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S16x7, .f32⟩
  | .local _ .vmem, ⟨12, _⟩ => ⟨S5000x7, .f32⟩
  | .local _ .vmem, ⟨13, _⟩ => ⟨S5000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1433x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S1000x1433_S1000x1433_0_0 : ∀ a, (![0, 0] : Fin 2 → Nat) a + S1000x1433.size a ≤ S1000x1433.size a
  h_S1000x1433 : 0 < S1000x1433.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x1433 : S1000x1.Broadcasts S1000x1433
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S1000x16_S1000x16_0_0 : ∀ a, (![0, 0] : Fin 2 → Nat) a + S1000x16.size a ≤ S1000x16.size a
  h_S1000x16 : 0 < S1000x16.numel
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  dot_S1000x1433_S1433x16_S1000x16_1_0_0_1_n_n_wf : DotDims.WF S1000x1433 S1433x16 S1000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x7_S5000x7_1_0_0_1_n_n_wf : DotDims.WF S5000x16 S16x7 S5000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S100000x1433.size a
  hwx0_0 : ∀ i : grid0.Coords, EltTy.bits .f32 = 32 ∨ (Rect.block (s := S100000x1433) S1000x1433.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .f32 = 32 ∨ (Rect.block (s := S100000x1) S1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1433x16.size a ≤ S1433x16.size a
  hwx0_2 : ∀ i : grid0.Coords, EltTy.bits .f32 = 32 ∨ (Rect.block (s := S1433x16) S1433x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x16.size a ≤ S100000x16.size a
  hwx0_3 : ∀ i : grid0.Coords, EltTy.bits .f32 = 32 ∨ (Rect.block (s := S100000x16) S1000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x7.size a ≤ S100000x7.size a
  hwx1_3 : ∀ i : grid1.Coords, EltTy.bits .f32 = 32 ∨ (Rect.block (s := S100000x7) S5000x7.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S1000x1433_S1433x16_S1000x16_1_0_0_1_n_n : DotDims S1000x1433 S1433x16 S1000x16 where
  lhsContracting := [1]
  rhsContracting := [0]
  lhsNonContracting := [0]
  rhsNonContracting := [1]
  lhsBatch := []
  rhsBatch := []
  wf := dot_S1000x1433_S1433x16_S1000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1433x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩

abbrev nBuf : Space → Nat
  | .hbm => 74
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x1433, .f32⟩
  | .hbm, ⟨27, _⟩ => ⟨S100000x1433, .f32⟩
  | .hbm, ⟨28, _⟩ => ⟨S100000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S_, .f32⟩
  | .hbm, ⟨39, _⟩ => ⟨S100000x16, .f32⟩
  | .hbm, ⟨40, _⟩ => ⟨S3200000x1, .i32⟩
  | .hbm, ⟨41, _⟩ => ⟨S100000x16, .f32⟩
  | .hbm, ⟨42, _⟩ => ⟨S100000x1, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S100000x1, .f32⟩
  | .hbm, ⟨52, _⟩ => ⟨S100000x16, .f32⟩
  | .hbm, ⟨53, _⟩ => ⟨S100000x16, .f32⟩
  | .hbm, ⟨54, _⟩ => ⟨S100000x7, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x7, .f32⟩
  | .hbm, ⟨64, _⟩ => ⟨S_, .f32⟩
  | .hbm, ⟨65, _⟩ => ⟨S100000x7, .f32⟩
  | .hbm, ⟨66, _⟩ => ⟨S3200000x1, .i32⟩
  | .hbm, ⟨67, _⟩ => ⟨S100000x7, .f32⟩
  | .hbm, ⟨68, _⟩ => ⟨S100000x1, .f32⟩
  | .hbm, ⟨69, _⟩ => ⟨S100000x7, .f32⟩
  | .hbm, ⟨70, _⟩ => ⟨S100000x7, .f32⟩
  | .hbm, ⟨71, _⟩ => ⟨S1x7, .f32⟩
  | .hbm, ⟨72, _⟩ => ⟨S100000x7, .f32⟩
  | .hbm, ⟨73, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x1433_0_1 : S100000x1.BroadcastsInDim S100000x1433 (![0, 1] : Fin 2 → Fin S100000x1433.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  dot_S100000x1433_S1433x16_S100000x16_1_0_0_1_n_n_wf : DotDims.WF S100000x1433 S1433x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.ScaledProduct.lean ====
/-
  The dense step of one graph-convolution layer, at the extended reals, for any sizes: each row `p` of an `[M, K]` array
  is scaled by one number of its own and the scaled array is multiplied by a `[K, N]` array,

      out(p, q) = ∑ₖ X(p, k) · s(p) · W(k, q).

  The row's number comes either as the entry `(p, 0)` of a column `[M, 1]` (`colScaled`) or as the entry `p` of a
  length-`M` vector (`rowScaled`); when the column is that vector reshaped, the two agree (`colScaled_column`).
  `payload_apply` is the matrix product into the zero word of the narrowed scaled rows with the narrowed right operand,
  read at an element: narrowing is the identity on the extended reals, the column broadcast along the lanes reads the
  column at the row, and the product into zero is the sum over the contracted coordinate — no law of the extended reals
  beyond that is used, so nothing here needs a finite operand.
-/
import proofs.«110943_j1236950581662_1_alg».proof.Proof.LibRowwise

noncomputable section

namespace Cert.Spec

open Idealize.ShloMosaic Idealize.ShloMosaic.ValueIdx Cert.Lib.Rowwise

variable {M K N : Nat}

/-- Row `p` of `X` scaled by the column's entry `(p, 0)`, times `W`. -/
def colScaled (X : (⟨2, ![M, K]⟩ : Shape).Idx → EReal) (col : (⟨2, ![M, 1]⟩ : Shape).Idx → EReal)
    (W : (⟨2, ![K, N]⟩ : Shape).Idx → EReal) : (⟨2, ![M, N]⟩ : Shape).Idx → EReal :=
  fun i => ∑ k : Fin K, X (ix2 (i 0) k) * col (ix2 (i 0) 0) * W (ix2 k (i 1))

/-- Row `p` of `X` scaled by the vector's entry `p`, times `W`. -/
def rowScaled (X : (⟨2, ![M, K]⟩ : Shape).Idx → EReal) (s : (⟨1, ![M]⟩ : Shape).Idx → EReal)
    (W : (⟨2, ![K, N]⟩ : Shape).Idx → EReal) : (⟨2, ![M, N]⟩ : Shape).Idx → EReal :=
  fun i => ∑ k : Fin K, X (ix2 (i 0) k) * s (ix1 (i 0)) * W (ix2 k (i 1))

theorem colScaled_apply (X : (⟨2, ![M, K]⟩ : Shape).Idx → EReal) (col : (⟨2, ![M, 1]⟩ : Shape).Idx → EReal)
    (W : (⟨2, ![K, N]⟩ : Shape).Idx → EReal) (p : Fin M) (q : Fin N) :
    colScaled X col W (ix2 p q) = ∑ k : Fin K, X (ix2 p k) * col (ix2 p 0) * W (ix2 k q) := rfl

theorem rowScaled_apply (X : (⟨2, ![M, K]⟩ : Shape).Idx → EReal) (s : (⟨1, ![M]⟩ : Shape).Idx → EReal)
    (W : (⟨2, ![K, N]⟩ : Shape).Idx → EReal) (p : Fin M) (q : Fin N) :
    rowScaled X s W (ix2 p q) = ∑ k : Fin K, X (ix2 p k) * s (ix1 p) * W (ix2 k q) := rfl

/-- With the column the vector reshaped, scaling by the column is scaling by the vector. -/
theorem colScaled_column (X : (⟨2, ![M, K]⟩ : Shape).Idx → EReal) (s : (⟨1, ![M]⟩ : Shape).Idx → EReal)
    (h : (⟨1, ![M]⟩ : Shape).ShapeCasts ⟨2, ![M, 1]⟩) (W : (⟨2, ![K, N]⟩ : Shape).Idx → EReal) :
    colScaled X (shapeCast ⟨2, ![M, 1]⟩ s h) W = rowScaled X s W := by
  funext i
  obtain ⟨p, q, rfl⟩ : ∃ (p : Fin M) (q : Fin N), i = ix2 p q := ⟨i 0, i 1, eq_ix2 i⟩
  rw [colScaled_apply, rowScaled_apply]
  exact Finset.sum_congr rfl fun k _ => by rw [column_apply]

/-- The body's arithmetic at an element: the narrowed scaled rows times the narrowed right operand, into the zero word. -/
theorem payload_apply (hM : M ≠ 1) (D : DotDims ⟨2, ![M, K]⟩ ⟨2, ![K, N]⟩ ⟨2, ![M, N]⟩) (hD : D = DotDims.plain M K N)
    (x : FVec Ideal ⟨2, ![M, K]⟩ .f32) (col : FVec Ideal ⟨2, ![M, 1]⟩ .f32) (w : FVec Ideal ⟨2, ![K, N]⟩ .f32)
    (hb : (⟨2, ![M, 1]⟩ : Shape).Broadcasts ⟨2, ![M, K]⟩) (h1 h2 : FTy.bf16.bits < FTy.f32.bits) (p : Fin M) (q : Fin N) :
    matmul D none (truncf .bf16 (mulf x (broadcastTo ⟨2, ![M, K]⟩ col hb)) h1) (truncf .bf16 w h2)
        (constant ⟨2, ![M, N]⟩ .f32 0x00000000#32) (ix2 p q)
      = ∑ k : Fin K, x (ix2 p k) * col (ix2 p 0) * w (ix2 k q) := by
  subst hD
  refine (plain_matmul_zero_apply none _ _ p q).trans (Finset.sum_congr rfl fun k _ => ?_)
  rw [truncf_apply, truncf_apply, mulf_apply, columnBroadcast_apply col hb hM]

end Cert.Spec

end
-- ==== Proof.RegionValue.lean ====
/-
  What each of the two kernel regions leaves in its result array, at the extended reals, for ANY contents `V` of the
  buffers at the region's entry: the array `[100000, N]` whose entry `(r, q)` is

      ∑ₖ X(r, k) · col(r, 0) · W(k, q),

  `X` the left operand's array, `col` the `[100000, 1]` column of row factors, `W` the right operand (`Cert.Spec.colScaled`).
  The grid cuts the rows into equal blocks; at block `t` the body reads rows `rows·t … rows·t + rows − 1` of `X` and of the
  column and the whole of `W`, and writes the same rows of the result, so each written block is that block of the one
  whole-array function and the blocks tile the result.
-/
import proofs.«110943_j1236950581662_1_alg».proof.Proof.Gen.KernelIdeal.Frame
import proofs.«110943_j1236950581662_1_alg».proof.Proof.ScaledProduct
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The first dense product: 100 blocks of 1000 rows, the right operand whole at every block -/

/-- The body's one stored value at an element of the block: row `p` of the left block scaled by the column block's entry
    `(p, 0)`, times column `q` of the right operand. -/
theorem pay0_at (x0 : Vec Ideal S1000x1433 .f32) (x1 : Vec Ideal S1000x1 .f32) (x2 : Vec Ideal S1433x16 .f32) (p : Fin 1000) (q : Fin 16) :
    k0_pay1 x0 x1 x2 (ix2 p q) = ∑ k : Fin 1433, x0 (ix2 p k) * x1 (ix2 p 0) * x2 (ix2 k q) := by
  unfold k0_pay1
  exact Cert.Spec.payload_apply (by decide) _ (Cert.Lib.Rowwise.eq_plain _ rfl rfl rfl rfl rfl rfl) x0 (shapeCast S1000x1 x1 shapeCasts_S1000x1_S1000x1) x2 _ _ _ p q |>.trans
    (Finset.sum_congr rfl fun k _ => by rw [shapeCast_self])

/-- Where the four blocks of a point lie: the left operand's, the column's and the result's at block row `t`, block column
    `0`; the right operand's always at the origin (decided over the grid's 100 points). -/
theorem blocks0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled product of the three arrays as the region finds them: the rows
    of block `t` are rows `1000·t + r` of the left operand and of the column, and every block sees the whole right operand. -/
theorem flushed0_eq (c : Dev nD) (t : Fin cfg0.N) :
    (dat0 (F := Ideal) V c).flushed 3 t = ((cfg0.win 3).blk t).view.read (Elt Ideal)
      (Cert.Spec.colScaled (M := 100000) (K := 1433) (N := 16) (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S1000x1433) hz, View.ld_unit_zero (S := S1000x1) hz, View.ld_unit_zero (S := S1433x16) hz]
  obtain ⟨e00, e01, e10, e11, e20, e21, e30, e31⟩ := blocks0 t
  funext j
  obtain ⟨p, q, rfl⟩ : ∃ (p : Fin 1000) (q : Fin 16), j = ix2 p q := ⟨j 0, j 1, eq_ix2 j⟩
  show k0_pay1 (iblk0 V c 0 t) (iblk0 V c 1 t) (iblk0 V c 2 t) (ix2 p q) = _
  refine (pay0_at (iblk0 V c 0 t) (iblk0 V c 1 t) (iblk0 V c 2 t) p q).trans ?_
  have hp : p.val < 1000 := p.isLt
  have ht : t.val < 100 := lt_of_lt_of_eq t.isLt N_0
  have hrow : 1000 * t.val + p.val < 100000 := by omega
  refine (Finset.sum_congr rfl fun k _ => ?_).trans
    (Cert.Spec.colScaled_apply (M := 100000) (K := 1433) (N := 16) (V c main_arg0) (V c main_v13) (V c main_arg3) ⟨1000 * t.val + p.val, hrow⟩ q).symm |>.trans ?_
  · have h0 : iblk0 V c 0 t (ix2 p k) = V c main_arg0 (ix2 (⟨1000 * t.val + p.val, hrow⟩ : Fin 100000) k) := by
      show V c main_arg0 (((cfg0.win 0).blk t).view.emb (ix2 p k)) = _
      refine congrArg _ (funext fun a => Fin.ext ?_)
      match a with
      | ⟨0, _⟩ => show win0_0.index t (0 : Fin 2) * 1000 + 1 * p.val = 1000 * t.val + p.val; rw [e00]; omega
      | ⟨1, _⟩ => show win0_0.index t (1 : Fin 2) * 1433 + 1 * k.val = k.val; rw [e01]; omega
    have h1 : iblk0 V c 1 t (ix2 p 0) = V c main_v13 (ix2 (⟨1000 * t.val + p.val, hrow⟩ : Fin 100000) 0) := by
      show V c main_v13 (((cfg0.win 1).blk t).view.emb (ix2 p 0)) = _
      refine congrArg _ (funext fun a => Fin.ext ?_)
      match a with
      | ⟨0, _⟩ => show win0_1.index t (0 : Fin 2) * 1000 + 1 * p.val = 1000 * t.val + p.val; rw [e10]; omega
      | ⟨1, _⟩ => show win0_1.index t (1 : Fin 2) * 1 + 1 * 0 = 0; rw [e11]
    have h2 : iblk0 V c 2 t (ix2 k q) = V c main_arg3 (ix2 k q) := by
      show V c main_arg3 (((cfg0.win 2).blk t).view.emb (ix2 k q)) = _
      refine congrArg _ (funext fun a => Fin.ext ?_)
      match a with
      | ⟨0, _⟩ => show win0_2.index t (0 : Fin 2) * 1433 + 1 * k.val = k.val; rw [e20]; omega
      | ⟨1, _⟩ => show win0_2.index t (1 : Fin 2) * 16 + 1 * q.val = q.val; rw [e21]; omega
    rw [h0, h1, h2]
  · show Cert.Spec.colScaled _ _ _ _ = Cert.Spec.colScaled _ _ _ (((cfg0.win 3).blk t).view.emb (ix2 p q))
    refine congrArg _ (funext fun a => Fin.ext ?_)
    match a with
    | ⟨0, _⟩ => show 1000 * t.val + p.val = win0_3.index t (0 : Fin 2) * 1000 + 1 * p.val; rw [e30]; omega
    | ⟨1, _⟩ => show q.val = win0_3.index t (1 : Fin 2) * 16 + 1 * q.val; rw [e31]; omega

/-- An index of the result array lies in point `t`'s block iff each coordinate lies in the block's range on its axis. -/
theorem mem_blk0 (t : Fin cfg0.N) (i : S100000x16.Idx) :
    i ∈ ((cfg0.win 3).blk t).view.set ↔ ∀ a : Fin 2, win0_3.index t a * S1000x16.size a ≤ (i a).val ∧ (i a).val < win0_3.index t a * S1000x16.size a + S1000x16.size a := by
  show i ∈ ((View.whole main_v14).slice (win0_3.rect t)).set ↔ _
  rw [View.set_slice_whole, Rect.mem_set_unit]
  exact Iff.rfl

/-- Row `r` of the result lies in the block of point `r / 1000`: the blocks tile the array. -/
theorem cover0 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 100 := N_0
  let t : Fin cfg0.N := ⟨(i 0).val / 1000, by rw [hN]; omega⟩
  obtain ⟨-, -, -, -, -, -, e30, e31⟩ := blocks0 t
  have e30' : win0_3.index t (0 : Fin 2) = (i 0).val / 1000 := e30
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; rw [e30']; omega
  | ⟨1, _⟩ => show win0_3.index t (1 : Fin 2) * 16 ≤ (i 1).val ∧ (i 1).val < win0_3.index t (1 : Fin 2) * 16 + 16; rw [e31]; omega

/-- The result array after the region: the scaled product of the three arrays as the region finds them. -/
theorem region0_value (c : Dev nD) :
    (dat0 (F := Ideal) V c).arrAt 3 cfg0.N
      = Cert.Spec.colScaled (M := 100000) (K := 1433) (N := 16) (V c main_arg0) (V c main_v13) (V c main_arg3) :=
  (dat0 (F := Ideal) V c).arrAt_eq_of_cover 3 _ (fun t _ => flushed0_eq V c t) cover0

/-! ## The second dense product: 20 blocks of 5000 rows, the right operand whole at every block -/

/-- The body's one stored value at an element of the block: row `p` of the left block scaled by the column block's entry
    `(p, 0)`, times column `q` of the right operand. -/
theorem pay1_at (x0 : Vec Ideal S5000x16 .f32) (x1 : Vec Ideal S5000x1 .f32) (x2 : Vec Ideal S16x7 .f32) (p : Fin 5000) (q : Fin 7) :
    k1_pay1 x0 x1 x2 (ix2 p q) = ∑ k : Fin 16, x0 (ix2 p k) * x1 (ix2 p 0) * x2 (ix2 k q) := by
  unfold k1_pay1
  exact Cert.Spec.payload_apply (by decide) _ (Cert.Lib.Rowwise.eq_plain _ rfl rfl rfl rfl rfl rfl) (shapeCast S5000x16 x0 shapeCasts_S5000x16_S5000x16) (shapeCast S5000x1 x1 shapeCasts_S5000x1_S5000x1) x2 _ _ _ p q |>.trans
    (Finset.sum_congr rfl fun k _ => by rw [shapeCast_self, shapeCast_self])

/-- Where the four blocks of a point lie: the left operand's, the column's and the result's at block row `t`, block column
    `0`; the right operand's always at the origin (decided over the grid's 20 points). -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the scaled product of the three arrays as the region finds them: the rows
    of block `t` are rows `5000·t + r` of the left operand and of the column, and every block sees the whole right operand. -/
theorem flushed1_eq (c : Dev nD) (t : Fin cfg1.N) :
    (dat1 (F := Ideal) V c).flushed 3 t = ((cfg1.win 3).blk t).view.read (Elt Ideal)
      (Cert.Spec.colScaled (M := 100000) (K := 16) (N := 7) (V c main_v31) (V c main_v32) (V c main_arg5)) := by
  show (cfg1.win 3).cut (grid1.coords t) ((dat1 V c).after 3 t) = _
  rw [after1_3]
  unfold out1_3
  rw [View.canon_unit_zero hz]
  simp only [View.ld_unit_zero (S := S5000x16) hz, View.ld_unit_zero (S := S5000x1) hz, View.ld_unit_zero (S := S16x7) hz]
  obtain ⟨e00, e01, e10, e11, e20, e21, e30, e31⟩ := blocks1 t
  funext j
  obtain ⟨p, q, rfl⟩ : ∃ (p : Fin 5000) (q : Fin 7), j = ix2 p q := ⟨j 0, j 1, eq_ix2 j⟩
  show k1_pay1 (iblk1 V c 0 t) (iblk1 V c 1 t) (iblk1 V c 2 t) (ix2 p q) = _
  refine (pay1_at (iblk1 V c 0 t) (iblk1 V c 1 t) (iblk1 V c 2 t) p q).trans ?_
  have hp : p.val < 5000 := p.isLt
  have ht : t.val < 20 := lt_of_lt_of_eq t.isLt N_1
  have hrow : 5000 * t.val + p.val < 100000 := by omega
  refine (Finset.sum_congr rfl fun k _ => ?_).trans
    (Cert.Spec.colScaled_apply (M := 100000) (K := 16) (N := 7) (V c main_v31) (V c main_v32) (V c main_arg5) ⟨5000 * t.val + p.val, hrow⟩ q).symm |>.trans ?_
  · have h0 : iblk1 V c 0 t (ix2 p k) = V c main_v31 (ix2 (⟨5000 * t.val + p.val, hrow⟩ : Fin 100000) k) := by
      show V c main_v31 (((cfg1.win 0).blk t).view.emb (ix2 p k)) = _
      refine congrArg _ (funext fun a => Fin.ext ?_)
      match a with
      | ⟨0, _⟩ => show win1_0.index t (0 : Fin 2) * 5000 + 1 * p.val = 5000 * t.val + p.val; rw [e00]; omega
      | ⟨1, _⟩ => show win1_0.index t (1 : Fin 2) * 16 + 1 * k.val = k.val; rw [e01]; omega
    have h1 : iblk1 V c 1 t (ix2 p 0) = V c main_v32 (ix2 (⟨5000 * t.val + p.val, hrow⟩ : Fin 100000) 0) := by
      show V c main_v32 (((cfg1.win 1).blk t).view.emb (ix2 p 0)) = _
      refine congrArg _ (funext fun a => Fin.ext ?_)
      match a with
      | ⟨0, _⟩ => show win1_1.index t (0 : Fin 2) * 5000 + 1 * p.val = 5000 * t.val + p.val; rw [e10]; omega
      | ⟨1, _⟩ => show win1_1.index t (1 : Fin 2) * 1 + 1 * 0 = 0; rw [e11]
    have h2 : iblk1 V c 2 t (ix2 k q) = V c main_arg5 (ix2 k q) := by
      show V c main_arg5 (((cfg1.win 2).blk t).view.emb (ix2 k q)) = _
      refine congrArg _ (funext fun a => Fin.ext ?_)
      match a with
      | ⟨0, _⟩ => show win1_2.index t (0 : Fin 2) * 16 + 1 * k.val = k.val; rw [e20]; omega
      | ⟨1, _⟩ => show win1_2.index t (1 : Fin 2) * 7 + 1 * q.val = q.val; rw [e21]; omega
    rw [h0, h1, h2]
  · show Cert.Spec.colScaled _ _ _ _ = Cert.Spec.colScaled _ _ _ (((cfg1.win 3).blk t).view.emb (ix2 p q))
    refine congrArg _ (funext fun a => Fin.ext ?_)
    match a with
    | ⟨0, _⟩ => show 5000 * t.val + p.val = win1_3.index t (0 : Fin 2) * 5000 + 1 * p.val; rw [e30]; omega
    | ⟨1, _⟩ => show q.val = win1_3.index t (1 : Fin 2) * 7 + 1 * q.val; rw [e31]; omega

/-- An index of the result array lies in point `t`'s block iff each coordinate lies in the block's range on its axis. -/
theorem mem_blk1 (t : Fin cfg1.N) (i : S100000x7.Idx) :
    i ∈ ((cfg1.win 3).blk t).view.set ↔ ∀ a : Fin 2, win1_3.index t a * S5000x7.size a ≤ (i a).val ∧ (i a).val < win1_3.index t a * S5000x7.size a + S5000x7.size a := by
  show i ∈ ((View.whole main_v33).slice (win1_3.rect t)).set ↔ _
  rw [View.set_slice_whole, Rect.mem_set_unit]
  exact Iff.rfl

/-- Row `r` of the result lies in the block of point `r / 5000`: the blocks tile the array. -/
theorem cover1 (i : S100000x7.Idx) : ∃ t : Fin cfg1.N, (cfg1.win 3).flush t = true ∧ i ∈ ((cfg1.win 3).blk t).view.set := by
  have hi0 : (i 0).val < 100000 := (i 0).isLt
  have hi1 : (i 1).val < 7 := (i 1).isLt
  have hN : cfg1.N = 20 := N_1
  let t : Fin cfg1.N := ⟨(i 0).val / 5000, by rw [hN]; omega⟩
  obtain ⟨-, -, -, -, -, -, e30, e31⟩ := blocks1 t
  have e30' : win1_3.index t (0 : Fin 2) = (i 0).val / 5000 := e30
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e30']; omega
  | ⟨1, _⟩ => show win1_3.index t (1 : Fin 2) * 7 ≤ (i 1).val ∧ (i 1).val < win1_3.index t (1 : Fin 2) * 7 + 7; rw [e31]; omega

/-- The result array after the region: the scaled product of the three arrays as the region finds them. -/
theorem region1_value (c : Dev nD) :
    (dat1 (F := Ideal) V c).arrAt 3 cfg1.N
      = Cert.Spec.colScaled (M := 100000) (K := 16) (N := 7) (V c main_v31) (V c main_v32) (V c main_arg5) :=
  (dat1 (F := Ideal) V c).arrAt_eq_of_cover 3 _ (fun t _ => flushed1_eq V c t) cover1

end Cert.KernelIdeal.Regions

end
-- ==== Proof.Layers.lean ====
/-
  The two-layer graph convolution as the reference computes it, cut where the kernel cuts it.

  With `s = rsqrt (max (out-degree) 1)` and `d = rsqrt (max (in-degree) 1)` (functions of the edge lists alone), one layer is

      dense   : H(r, q) = ∑ₖ X(r, k) · s(r) · W(k, q)                      (`Cert.Spec.rowScaled`)
      spread  : for every edge, row `src` of `H` is added into row `dst` of a zero array; row `r` of the sum is
                multiplied by `d(r)` and the bias is added                 (`spread1`, which also cuts at zero; `spread2`).

  The reference is `spread2 (dense (spread1 (dense features)))`: `reference_eq`. The spread steps are kept as the
  reference's own operations applied to an arbitrary `H` and an arbitrary `d`, never opened: the kernel's program applies
  the very same operations, so only the dense steps are compared index by index.
-/
import proofs.«110943_j1236950581662_1_alg».proof.Proof.Gen.ReferenceIdeal.Read
import proofs.«110943_j1236950581662_1_alg».proof.Proof.ScaledProduct

noncomputable section

namespace Cert.Layers

open Idealize.ShloMosaic Idealize.ShloMosaic.ValueIdx
open Cert.ReferenceIdeal Cert.ReferenceIdeal.Gen Cert.ReferenceIdeal.Read

/-- After the first dense product `h`, before the cut: gather its rows along the edges' sources `x1`, add them into the
    edges' destinations `x2`, scale row `r` by `d r`, add the bias `x4`. -/
def agg1 (x1 x2 : (⟨S3200000, .i32⟩ : BufTy).Contents (Elt Ideal)) (d : FVec Ideal S100000 .f32) (x4 : FVec Ideal S16 .f32)
    (h : FVec Ideal S100000x16 .f32) : FVec Ideal S100000x16 .f32 :=
  addf (F := Ideal) (mulf (Host.scatterAdd scatter_S100000x16_S3200000x1_S3200000x16_1_0_0_1 (val_main_v24 (F := Ideal)) (val_main_v25 (F := Ideal) x2)
      (Host.gather gather_S100000x16_S3200000x1_S3200000x16_1_0_n_n_0_1_116 h (val_main_v22 (F := Ideal) x1)))
      (broadcastInDim S100000x16 ![0, 1] bcast_S100000x1_S100000x16_0_1 (broadcastInDim S100000x1 ![0] bcast_S100000_S100000x1_0 d)))
    (val_main_v31 (F := Ideal) x4)

/-- The first layer's spread: `agg1` cut at zero. -/
def spread1 (x1 x2 : (⟨S3200000, .i32⟩ : BufTy).Contents (Elt Ideal)) (d : FVec Ideal S100000 .f32) (x4 : FVec Ideal S16 .f32)
    (h : FVec Ideal S100000x16 .f32) : FVec Ideal S100000x16 .f32 :=
  maximumf (F := Ideal) (agg1 x1 x2 d x4 h) (val_main_call0_v0 (F := Ideal))

/-- After the second dense product `h`: the same spread, with the second bias `x6` and no cut. -/
def spread2 (x1 x2 : (⟨S3200000, .i32⟩ : BufTy).Contents (Elt Ideal)) (d : FVec Ideal S100000 .f32) (x6 : FVec Ideal S7 .f32)
    (h : FVec Ideal S100000x7 .f32) : FVec Ideal S100000x7 .f32 :=
  addf (F := Ideal) (mulf (Host.scatterAdd scatter_S100000x7_S3200000x1_S3200000x7_1_0_0_1 (val_main_v45 (F := Ideal)) (val_main_v46 (F := Ideal) x2)
      (Host.gather gather_S100000x7_S3200000x1_S3200000x7_1_0_n_n_0_1_17 h (val_main_v43 (F := Ideal) x1)))
      (broadcastInDim S100000x7 ![0, 1] bcast_S100000x1_S100000x7_0_1 (broadcastInDim S100000x1 ![0] bcast_S100000_S100000x1_0 d)))
    (val_main_v52 (F := Ideal) x6)

variable (x0 : FVec Ideal S100000x1433 .f32) (x1 x2 : (⟨S3200000, .i32⟩ : BufTy).Contents (Elt Ideal))
  (x3 : FVec Ideal S1433x16 .f32) (x4 : FVec Ideal S16 .f32) (x5 : FVec Ideal S16x7 .f32) (x6 : FVec Ideal S7 .f32)

/-- The source-side row factors: `rsqrt (max (out-degree) 1)`. -/
abbrev srcScale : FVec Ideal S100000 .f32 := val_main_v9 (F := Ideal) x1
/-- The destination-side row factors: `rsqrt (max (in-degree) 1)`. -/
abbrev dstScale : FVec Ideal S100000 .f32 := val_main_v12 (F := Ideal) x2

/-- The reference's first dense product is the row-scaled product of the features with the first weights. -/
theorem dense1_eq : val_main_v16 (F := Ideal) x0 x1 x3 = Cert.Spec.rowScaled (M := 100000) (K := 1433) (N := 16) x0 (srcScale x1) x3 := by
  funext i
  obtain ⟨p, q, rfl⟩ : ∃ (p : Fin 100000) (q : Fin 16), i = ix2 p q := ⟨i 0, i 1, eq_ix2 i⟩
  rw [val_main_v16_apply, Cert.Spec.rowScaled_apply]
  refine Finset.sum_congr rfl fun k _ => ?_
  rw [val_main_v15_apply, val_main_v14_apply, val_main_v13_apply]
  have el : lidx_main_v16 (ix2 p q) k = ix2 p k := funext fun a => Fin.ext (by match a with | ⟨0, _⟩ => rfl | ⟨1, _⟩ => rfl)
  have er : ridx_main_v16 (ix2 p q) k = ix2 k q := funext fun a => Fin.ext (by match a with | ⟨0, _⟩ => rfl | ⟨1, _⟩ => rfl)
  have es : idx_main_v13 (idx_main_v14 (ix2 p k)) = ix1 p := funext fun a => Fin.ext (by match a with | ⟨0, _⟩ => rfl)
  rw [el, er, es]
  rfl

/-- The reference's first layer is the spread of its first dense product. -/
theorem layer1_eq : val_main_v33 (F := Ideal) x0 x1 x2 x3 x4 = spread1 x1 x2 (dstScale x2) x4 (val_main_v16 (F := Ideal) x0 x1 x3) := rfl

/-- The reference's second dense product is the row-scaled product of the first layer with the second weights. -/
theorem dense2_eq : val_main_v37 (F := Ideal) x0 x1 x2 x3 x4 x5
    = Cert.Spec.rowScaled (M := 100000) (K := 16) (N := 7) (val_main_v33 (F := Ideal) x0 x1 x2 x3 x4) (srcScale x1) x5 := by
  funext i
  obtain ⟨p, q, rfl⟩ : ∃ (p : Fin 100000) (q : Fin 7), i = ix2 p q := ⟨i 0, i 1, eq_ix2 i⟩
  rw [val_main_v37_apply, Cert.Spec.rowScaled_apply]
  refine Finset.sum_congr rfl fun k _ => ?_
  rw [val_main_v36_apply, val_main_v35_apply, val_main_v34_apply]
  have el : lidx_main_v37 (ix2 p q) k = ix2 p k := funext fun a => Fin.ext (by match a with | ⟨0, _⟩ => rfl | ⟨1, _⟩ => rfl)
  have er : ridx_main_v37 (ix2 p q) k = ix2 k q := funext fun a => Fin.ext (by match a with | ⟨0, _⟩ => rfl | ⟨1, _⟩ => rfl)
  have es : idx_main_v34 (idx_main_v35 (ix2 p k)) = ix1 p := funext fun a => Fin.ext (by match a with | ⟨0, _⟩ => rfl)
  rw [el, er, es]
  rfl

/-- The reference's result is the spread of its second dense product. -/
theorem layer2_eq : val_main_v53 (F := Ideal) x0 x1 x2 x3 x4 x5 x6 = spread2 x1 x2 (dstScale x2) x6 (val_main_v37 (F := Ideal) x0 x1 x2 x3 x4 x5) := rfl

/-- The whole network as one term: dense, spread and cut, dense, spread. -/
def network : FVec Ideal S100000x7 .f32 :=
  spread2 x1 x2 (dstScale x2) x6 (Cert.Spec.rowScaled (M := 100000) (K := 16) (N := 7)
    (spread1 x1 x2 (dstScale x2) x4 (Cert.Spec.rowScaled (M := 100000) (K := 1433) (N := 16) x0 (srcScale x1) x3)) (srcScale x1) x5)

/-- The reference computes the network. -/
theorem reference_eq : val_main_v53 (F := Ideal) x0 x1 x2 x3 x4 x5 x6 = network x0 x1 x2 x3 x4 x5 x6 := by
  rw [layer2_eq, dense2_eq, layer1_eq, dense1_eq]
  rfl

end Cert.Layers

end
-- ==== Proof.KernelValue.lean ====
/-
  The idealized kernel program's result array, read back through @main as a function of the argument arrays.

  @main is: host operations (the degree factors `s`, `d` and the column `[100000, 1]` of `s`), the first kernel region,
  host operations (the spread of layer one, then the cut at zero, then the column of `s` again), the second kernel
  region, host operations (the spread of layer two). Buffer by buffer, boundary by boundary:

    * a host stretch, from ANY contents `V` of the buffers, leaves in the buffer it computes the reference's own term of
      what it read, and every buffer it does not write as it found it (first section; a gather or a scatter-add is
      carried as the reference's own operation and never opened);
    * a kernel region leaves in its result array the column-scaled product of its three operand arrays
      (`Cert.KernelIdeal.Regions.regionK_value`) and every other buffer as it found it.

  So the result is `spread2 (colScaled (spread1 (colScaled features (column s) W1)) (column s) W2)`, and scaling by the
  reshaped column is scaling by `s` (`Cert.Spec.colScaled_column`): the network of `Cert.Layers`.
-/
import proofs.«110943_j1236950581662_1_alg».proof.Proof.RegionValue
import proofs.«110943_j1236950581662_1_alg».proof.Proof.Layers
import Idealize.ShloMosaic.Lib.StableHlo.Run

set_option maxRecDepth 16384

noncomputable section

namespace Cert.KernelIdeal.HostWalk

open Idealize.ShloMosaic Idealize.ShloMosaic.TcCoe Idealize.ShloMosaic.ValueIdx Idealize.SL.Sem Idealize.ShloMosaic.StableHlo
open Cert.KernelIdeal Cert.KernelIdeal.Gen

/-! ## The host stretches, from any contents -/

section Stretches

variable (V : Valuation τ sig (Elt Ideal))

/-- The zero array the cut compares with. -/
abbrev zeros16 : FVec Ideal S100000x16 .f32 := broadcastInDim S100000x16 ![] bcast_S_S100000x16 (constant S_ .f32 0x00000000#32)

set_option maxHeartbeats 1000000 in
/-- The first stretch writes no argument. -/
theorem st0_keep (b : Ref sig .tc) (hb : b = main_arg0 ∨ b = main_arg1 ∨ b = main_arg2 ∨ b = main_arg3 ∨ b = main_arg4 ∨ b = main_arg5 ∨ b = main_arg6) :
    StableHlo.after hostOps0 V (Proc.devRef .tc b) = V (Proc.devRef .tc b) := by
  rcases hb with rfl | rfl | rfl | rfl | rfl | rfl | rfl <;> (dsimp only [hostOps0]; after_results_simp <;> rfl)

set_option maxHeartbeats 1000000 in
/-- The source-side factors are the reference's term of the sources. -/
theorem st0_v9 : (StableHlo.after hostOps0 V (Proc.devRef .tc main_v9) : FVec Ideal S100000 .f32) = Cert.Layers.srcScale (V (Proc.devRef .tc main_arg1)) := by
  dsimp only [hostOps0]; after_results_simp <;> rfl

set_option maxHeartbeats 1000000 in
/-- The destination-side factors are the reference's term of the destinations. -/
theorem st0_v12 : (StableHlo.after hostOps0 V (Proc.devRef .tc main_v12) : FVec Ideal S100000 .f32) = Cert.Layers.dstScale (V (Proc.devRef .tc main_arg2)) := by
  dsimp only [hostOps0]; after_results_simp <;> rfl

set_option maxHeartbeats 1000000 in
/-- The column the first region reads is the source-side factors reshaped. -/
theorem st0_v13 : (StableHlo.after hostOps0 V (Proc.devRef .tc main_v13) : FVec Ideal S100000x1 .f32)
    = shapeCast S100000x1 (Cert.Layers.srcScale (V (Proc.devRef .tc main_arg1))) shapeCasts_S100000_S100000x1 := by
  dsimp only [hostOps0]; after_results_simp <;> rfl

set_option maxHeartbeats 1000000 in
/-- The stretch after the first region spreads the first dense product (before the cut). -/
theorem st1_v30 : (StableHlo.after hostOps1 V (Proc.devRef .tc main_v30) : FVec Ideal S100000x16 .f32)
    = Cert.Layers.agg1 (V (Proc.devRef .tc main_arg1)) (V (Proc.devRef .tc main_arg2)) (V (Proc.devRef .tc main_v12)) (V (Proc.devRef .tc main_arg4))
        (V (Proc.devRef .tc main_v14)) := by
  dsimp only [hostOps1]; after_results_simp <;> rfl

set_option maxHeartbeats 1000000 in
theorem st1_keep (b : Ref sig .tc) (hb : b = main_arg1 ∨ b = main_arg2 ∨ b = main_arg5 ∨ b = main_arg6 ∨ b = main_v12 ∨ b = main_v9) :
    StableHlo.after hostOps1 V (Proc.devRef .tc b) = V (Proc.devRef .tc b) := by
  rcases hb with rfl | rfl | rfl | rfl | rfl | rfl <;> (dsimp only [hostOps1]; after_results_simp <;> rfl)

set_option maxHeartbeats 1000000 in
/-- The cut at zero. -/
theorem st1b_v31 : (StableHlo.after hostOps1_1 V (Proc.devRef .tc main_v31) : FVec Ideal S100000x16 .f32)
    = maximumf (F := Ideal) (V (Proc.devRef .tc main_v30)) zeros16 := by
  dsimp only [hostOps1_1]; after_results_simp <;> rfl

set_option maxHeartbeats 1000000 in
theorem st1b_keep (b : Ref sig .tc) (hb : b = main_arg1 ∨ b = main_arg2 ∨ b = main_arg5 ∨ b = main_arg6 ∨ b = main_v12 ∨ b = main_v9) :
    StableHlo.after hostOps1_1 V (Proc.devRef .tc b) = V (Proc.devRef .tc b) := by
  rcases hb with rfl | rfl | rfl | rfl | rfl | rfl <;> (dsimp only [hostOps1_1]; after_results_simp <;> rfl)

set_option maxHeartbeats 1000000 in
/-- The column the second region reads is the source-side factors reshaped, again. -/
theorem st1c_v32 : (StableHlo.after hostOps1_2 V (Proc.devRef .tc main_v32) : FVec Ideal S100000x1 .f32)
    = shapeCast S100000x1 (V (Proc.devRef .tc main_v9)) shapeCasts_S100000_S100000x1 := by
  dsimp only [hostOps1_2]; after_results_simp <;> rfl

set_option maxHeartbeats 1000000 in
theorem st1c_keep (b : Ref sig .tc) (hb : b = main_arg1 ∨ b = main_arg2 ∨ b = main_arg5 ∨ b = main_arg6 ∨ b = main_v12 ∨ b = main_v31) :
    StableHlo.after hostOps1_2 V (Proc.devRef .tc b) = V (Proc.devRef .tc b) := by
  rcases hb with rfl | rfl | rfl | rfl | rfl | rfl <;> (dsimp only [hostOps1_2]; after_results_simp <;> rfl)

set_option maxHeartbeats 1000000 in
/-- The last stretch spreads the second dense product. -/
theorem st2_v49 : (StableHlo.after hostOps2 V (Proc.devRef .tc main_v49) : FVec Ideal S100000x7 .f32)
    = Cert.Layers.spread2 (V (Proc.devRef .tc main_arg1)) (V (Proc.devRef .tc main_arg2)) (V (Proc.devRef .tc main_v12)) (V (Proc.devRef .tc main_arg6))
        (V (Proc.devRef .tc main_v33)) := by
  dsimp only [hostOps2]; after_results_simp <;> rfl

/-- Cutting at the kernel program's zero array is the reference's cut. -/
theorem cut_eq (x1 x2 : (⟨S3200000, .i32⟩ : BufTy).Contents (Elt Ideal)) (d : FVec Ideal S100000 .f32) (x4 : FVec Ideal S16 .f32)
    (h : FVec Ideal S100000x16 .f32) :
    maximumf (F := Ideal) (Cert.Layers.agg1 x1 x2 d x4 h) zeros16 = Cert.Layers.spread1 x1 x2 d x4 h := rfl

end Stretches

/-! ## The walk through @main -/

variable (m : (ℓ : Loc nD τ sig) → Buf (Elt Ideal) ℓ) (ρ : Dev nD → PrngReg) (c : Dev nD)

/-- The argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
/-- The source-side and destination-side row factors, as the reference's terms of the edge lists. -/
abbrev Sv : FVec Ideal S100000 .f32 := Cert.Layers.srcScale (A1 m c)
abbrev Dv : FVec Ideal S100000 .f32 := Cert.Layers.dstScale (A2 m c)
/-- The source-side factors as a column. -/
abbrev Scol : FVec Ideal S100000x1 .f32 := shapeCast S100000x1 (Sv m c) shapeCasts_S100000_S100000x1

/-! ### After the first host stretch -/

theorem w1_arg0 : W1 m ρ c (Proc.devRef .tc main_arg0) = A0 m c := st0_keep (W0 m ρ c) main_arg0 (Or.inl rfl)
theorem w1_arg1 : W1 m ρ c (Proc.devRef .tc main_arg1) = A1 m c := st0_keep (W0 m ρ c) main_arg1 (Or.inr (Or.inl rfl))
theorem w1_arg2 : W1 m ρ c (Proc.devRef .tc main_arg2) = A2 m c := st0_keep (W0 m ρ c) main_arg2 (Or.inr (Or.inr (Or.inl rfl)))
theorem w1_arg3 : W1 m ρ c (Proc.devRef .tc main_arg3) = A3 m c := st0_keep (W0 m ρ c) main_arg3 (Or.inr (Or.inr (Or.inr (Or.inl rfl))))
theorem w1_arg4 : W1 m ρ c (Proc.devRef .tc main_arg4) = A4 m c := st0_keep (W0 m ρ c) main_arg4 (Or.inr (Or.inr (Or.inr (Or.inr (Or.inl rfl)))))
theorem w1_arg5 : W1 m ρ c (Proc.devRef .tc main_arg5) = A5 m c := st0_keep (W0 m ρ c) main_arg5 (Or.inr (Or.inr (Or.inr (Or.inr (Or.inr (Or.inl rfl))))))
theorem w1_arg6 : W1 m ρ c (Proc.devRef .tc main_arg6) = A6 m c := st0_keep (W0 m ρ c) main_arg6 (Or.inr (Or.inr (Or.inr (Or.inr (Or.inr (Or.inr (rfl)))))))
theorem w1_v9 : W1 m ρ c (Proc.devRef .tc main_v9) = Sv m c := st0_v9 (W0 m ρ c)
theorem w1_v12 : W1 m ρ c (Proc.devRef .tc main_v12) = Dv m c := st0_v12 (W0 m ρ c)
theorem w1_v13 : W1 m ρ c (Proc.devRef .tc main_v13) = Scol m c := st0_v13 (W0 m ρ c)

/-! ### After the first region -/

/-- The first dense product. -/
abbrev H1 : FVec Ideal S100000x16 .f32 := Cert.Spec.colScaled (M := 100000) (K := 1433) (N := 16) (A0 m c) (Scol m c) (A3 m c)

theorem w2_v14 : W2 m ρ c (Proc.devRef .tc main_v14) = H1 m c := by
  refine ((W2_arr m ρ c 3).trans (Cert.KernelIdeal.Regions.region0_value (V1 m ρ) c)).trans ?_
  show Cert.Spec.colScaled (M := 100000) (K := 1433) (N := 16) (W1 m ρ c (Proc.devRef .tc main_arg0)) (W1 m ρ c (Proc.devRef .tc main_v13)) (W1 m ρ c (Proc.devRef .tc main_arg3)) = _
  rw [w1_arg0, w1_v13, w1_arg3]
theorem w2_arg1 : W2 m ρ c (Proc.devRef .tc main_arg1) = A1 m c := (W2_of_ne m ρ c main_arg1 (by decide)).trans (w1_arg1 m ρ c)
theorem w2_arg2 : W2 m ρ c (Proc.devRef .tc main_arg2) = A2 m c := (W2_of_ne m ρ c main_arg2 (by decide)).trans (w1_arg2 m ρ c)
theorem w2_arg4 : W2 m ρ c (Proc.devRef .tc main_arg4) = A4 m c := (W2_of_ne m ρ c main_arg4 (by decide)).trans (w1_arg4 m ρ c)
theorem w2_arg5 : W2 m ρ c (Proc.devRef .tc main_arg5) = A5 m c := (W2_of_ne m ρ c main_arg5 (by decide)).trans (w1_arg5 m ρ c)
theorem w2_arg6 : W2 m ρ c (Proc.devRef .tc main_arg6) = A6 m c := (W2_of_ne m ρ c main_arg6 (by decide)).trans (w1_arg6 m ρ c)
theorem w2_v9 : W2 m ρ c (Proc.devRef .tc main_v9) = Sv m c := (W2_of_ne m ρ c main_v9 (by decide)).trans (w1_v9 m ρ c)
theorem w2_v12 : W2 m ρ c (Proc.devRef .tc main_v12) = Dv m c := (W2_of_ne m ρ c main_v12 (by decide)).trans (w1_v12 m ρ c)

/-! ### After the spread of layer one, the cut, and the column again -/

/-- The first layer: the spread of the first dense product, cut at zero. -/
abbrev L1 : FVec Ideal S100000x16 .f32 := Cert.Layers.spread1 (A1 m c) (A2 m c) (Dv m c) (A4 m c) (H1 m c)

theorem w3_v30 : W3 m ρ c (Proc.devRef .tc main_v30) = Cert.Layers.agg1 (A1 m c) (A2 m c) (Dv m c) (A4 m c) (H1 m c) := by
  refine (st1_v30 (W2 m ρ c)).trans ?_
  rw [w2_arg1, w2_arg2, w2_v12, w2_arg4, w2_v14]
theorem w3_arg1 : W3 m ρ c (Proc.devRef .tc main_arg1) = A1 m c := (st1_keep (W2 m ρ c) main_arg1 (Or.inl rfl)).trans (w2_arg1 m ρ c)
theorem w3_arg2 : W3 m ρ c (Proc.devRef .tc main_arg2) = A2 m c := (st1_keep (W2 m ρ c) main_arg2 (Or.inr (Or.inl rfl))).trans (w2_arg2 m ρ c)
theorem w3_arg5 : W3 m ρ c (Proc.devRef .tc main_arg5) = A5 m c := (st1_keep (W2 m ρ c) main_arg5 (Or.inr (Or.inr (Or.inl rfl)))).trans (w2_arg5 m ρ c)
theorem w3_arg6 : W3 m ρ c (Proc.devRef .tc main_arg6) = A6 m c := (st1_keep (W2 m ρ c) main_arg6 (Or.inr (Or.inr (Or.inr (Or.inl rfl))))).trans (w2_arg6 m ρ c)
theorem w3_v12 : W3 m ρ c (Proc.devRef .tc main_v12) = Dv m c := (st1_keep (W2 m ρ c) main_v12 (Or.inr (Or.inr (Or.inr (Or.inr (Or.inl rfl)))))).trans (w2_v12 m ρ c)
theorem w3_v9 : W3 m ρ c (Proc.devRef .tc main_v9) = Sv m c := (st1_keep (W2 m ρ c) main_v9 (Or.inr (Or.inr (Or.inr (Or.inr (Or.inr (rfl))))))).trans (w2_v9 m ρ c)

theorem w4_v31 : W4 m ρ c (Proc.devRef .tc main_v31) = L1 m c := by
  refine (st1b_v31 (W3 m ρ c)).trans ?_
  rw [w3_v30]
  exact cut_eq _ _ _ _ _
theorem w4_arg1 : W4 m ρ c (Proc.devRef .tc main_arg1) = A1 m c := (st1b_keep (W3 m ρ c) main_arg1 (Or.inl rfl)).trans (w3_arg1 m ρ c)
theorem w4_arg2 : W4 m ρ c (Proc.devRef .tc main_arg2) = A2 m c := (st1b_keep (W3 m ρ c) main_arg2 (Or.inr (Or.inl rfl))).trans (w3_arg2 m ρ c)
theorem w4_arg5 : W4 m ρ c (Proc.devRef .tc main_arg5) = A5 m c := (st1b_keep (W3 m ρ c) main_arg5 (Or.inr (Or.inr (Or.inl rfl)))).trans (w3_arg5 m ρ c)
theorem w4_arg6 : W4 m ρ c (Proc.devRef .tc main_arg6) = A6 m c := (st1b_keep (W3 m ρ c) main_arg6 (Or.inr (Or.inr (Or.inr (Or.inl rfl))))).trans (w3_arg6 m ρ c)
theorem w4_v12 : W4 m ρ c (Proc.devRef .tc main_v12) = Dv m c := (st1b_keep (W3 m ρ c) main_v12 (Or.inr (Or.inr (Or.inr (Or.inr (Or.inl rfl)))))).trans (w3_v12 m ρ c)
theorem w4_v9 : W4 m ρ c (Proc.devRef .tc main_v9) = Sv m c := (st1b_keep (W3 m ρ c) main_v9 (Or.inr (Or.inr (Or.inr (Or.inr (Or.inr (rfl))))))).trans (w3_v9 m ρ c)

theorem w5_v32 : W5 m ρ c (Proc.devRef .tc main_v32) = Scol m c := by
  refine (st1c_v32 (W4 m ρ c)).trans ?_
  rw [w4_v9]
theorem w5_arg1 : W5 m ρ c (Proc.devRef .tc main_arg1) = A1 m c := (st1c_keep (W4 m ρ c) main_arg1 (Or.inl rfl)).trans (w4_arg1 m ρ c)
theorem w5_arg2 : W5 m ρ c (Proc.devRef .tc main_arg2) = A2 m c := (st1c_keep (W4 m ρ c) main_arg2 (Or.inr (Or.inl rfl))).trans (w4_arg2 m ρ c)
theorem w5_arg5 : W5 m ρ c (Proc.devRef .tc main_arg5) = A5 m c := (st1c_keep (W4 m ρ c) main_arg5 (Or.inr (Or.inr (Or.inl rfl)))).trans (w4_arg5 m ρ c)
theorem w5_arg6 : W5 m ρ c (Proc.devRef .tc main_arg6) = A6 m c := (st1c_keep (W4 m ρ c) main_arg6 (Or.inr (Or.inr (Or.inr (Or.inl rfl))))).trans (w4_arg6 m ρ c)
theorem w5_v12 : W5 m ρ c (Proc.devRef .tc main_v12) = Dv m c := (st1c_keep (W4 m ρ c) main_v12 (Or.inr (Or.inr (Or.inr (Or.inr (Or.inl rfl)))))).trans (w4_v12 m ρ c)
theorem w5_v31 : W5 m ρ c (Proc.devRef .tc main_v31) = L1 m c := (st1c_keep (W4 m ρ c) main_v31 (Or.inr (Or.inr (Or.inr (Or.inr (Or.inr (rfl))))))).trans (w4_v31 m ρ c)

/-! ### After the second region -/

/-- The second dense product. -/
abbrev H2 : FVec Ideal S100000x7 .f32 := Cert.Spec.colScaled (M := 100000) (K := 16) (N := 7) (L1 m c) (Scol m c) (A5 m c)

theorem w6_v33 : W6 m ρ c (Proc.devRef .tc main_v33) = H2 m c := by
  refine ((W6_arr m ρ c 3).trans (Cert.KernelIdeal.Regions.region1_value (V5 m ρ) c)).trans ?_
  show Cert.Spec.colScaled (M := 100000) (K := 16) (N := 7) (W5 m ρ c (Proc.devRef .tc main_v31)) (W5 m ρ c (Proc.devRef .tc main_v32)) (W5 m ρ c (Proc.devRef .tc main_arg5)) = _
  rw [w5_v31, w5_v32, w5_arg5]
theorem w6_arg1 : W6 m ρ c (Proc.devRef .tc main_arg1) = A1 m c := (W6_of_ne m ρ c main_arg1 (by decide)).trans (w5_arg1 m ρ c)
theorem w6_arg2 : W6 m ρ c (Proc.devRef .tc main_arg2) = A2 m c := (W6_of_ne m ρ c main_arg2 (by decide)).trans (w5_arg2 m ρ c)
theorem w6_arg6 : W6 m ρ c (Proc.devRef .tc main_arg6) = A6 m c := (W6_of_ne m ρ c main_arg6 (by decide)).trans (w5_arg6 m ρ c)
theorem w6_v12 : W6 m ρ c (Proc.devRef .tc main_v12) = Dv m c := (W6_of_ne m ρ c main_v12 (by decide)).trans (w5_v12 m ρ c)

/-! ### After the last host stretch: the result -/

theorem w7_v49 : W7 m ρ c (Proc.devRef .tc main_v49) = Cert.Layers.spread2 (A1 m c) (A2 m c) (Dv m c) (A6 m c) (H2 m c) := by
  refine (st2_v49 (W6 m ρ c)).trans ?_
  rw [w6_arg1, w6_arg2, w6_v12, w6_arg6, w6_v33]

/-- The kernel program's result is the network of the argument arrays. -/
theorem result_eq : W7 m ρ c (Proc.devRef .tc main_v49) = Cert.Layers.network (A0 m c) (A1 m c) (A2 m c) (A3 m c) (A4 m c) (A5 m c) (A6 m c) := by
  rw [w7_v49]
  show Cert.Layers.spread2 (A1 m c) (A2 m c) (Dv m c) (A6 m c) (Cert.Spec.colScaled (M := 100000) (K := 16) (N := 7)
      (Cert.Layers.spread1 (A1 m c) (A2 m c) (Dv m c) (A4 m c) (Cert.Spec.colScaled (M := 100000) (K := 1433) (N := 16) (A0 m c)
        (shapeCast S100000x1 (Sv m c) shapeCasts_S100000_S100000x1) (A3 m c)))
      (shapeCast S100000x1 (Sv m c) shapeCasts_S100000_S100000x1) (A5 m c)) = _
  rw [Cert.Spec.colScaled_column, Cert.Spec.colScaled_column]
  rfl

end Cert.KernelIdeal.HostWalk

end
-- ==== Proof.lean ====
/-
  A two-layer graph convolution: the Pallas kernel against its jnp reference, over the extended reals.

  Both programs compute, from the features `X`, the edge lists `src`, `dst` and the weights and biases,

      s = rsqrt (max (out-degree) 1),  d = rsqrt (max (in-degree) 1)
      H₁(r, q) = ∑ₖ X(r, k) · s(r) · W₁(k, q)
      L₁       = max (d ⊙ (Σ over edges of row src of H₁ into row dst) + b₁) 0
      H₂(r, q) = ∑ₖ L₁(r, k) · s(r) · W₂(k, q)
      out      = d ⊙ (Σ over edges of row src of H₂ into row dst) + b₂.

  The reference does every step on the host. The kernel program does the two dense steps `H₁`, `H₂` in a kernel region each
  (a grid over blocks of rows; each block multiplies its rows, scaled by the column of `s` and narrowed, with the narrowed
  weights into a zero accumulator) and everything else with the reference's own host operations. At the extended reals
  narrowing is the identity and a product into zero is the plain sum, so each region's result array is the same
  index-by-index sum as the reference's `dot_general` of the scaled operand; the surrounding host operations are the same
  terms on both sides and are never opened. No law that needs a finite operand is used: the precondition is not opened.

  The three frames: the two kernel programs' are the generated ones; the reference's is its generated run with the result
  dropped. The idealization rewrote nothing, so `preserves` asks nothing.
-/
import proofs.«110943_j1236950581662_1_alg».proof.Defs
import proofs.«110943_j1236950581662_1_alg».proof.Proof.Gen.Kernel
import proofs.«110943_j1236950581662_1_alg».proof.Proof.Gen.Kernel.Frame
import proofs.«110943_j1236950581662_1_alg».proof.Proof.Gen.KernelIdeal
import proofs.«110943_j1236950581662_1_alg».proof.Proof.Gen.KernelIdeal.Frame
import proofs.«110943_j1236950581662_1_alg».proof.Proof.Gen.ReferenceIdeal
import proofs.«110943_j1236950581662_1_alg».proof.Proof.Gen.ReferenceIdeal.Run
import proofs.«110943_j1236950581662_1_alg».proof.Proof.Gen.ReferenceIdeal.Read
import proofs.«110943_j1236950581662_1_alg».proof.Proof.Gen.Pre_finite_inputs
import proofs.«110943_j1236950581662_1_alg».proof.Proof.KernelRun
import proofs.«110943_j1236950581662_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the network of the arguments in their result. -/
theorem algebraic : Cert.algebraic_KernelIdeal_ReferenceIdeal := by
  intro m ρ m' ρ' _ hagree
  refine ⟨fun c => Cert.Layers.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.HostWalk.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, Cert.Layers.reference_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
